-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3 : Shape := ⟨2, ![50000, 3]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_
  bcast_S_S131x128 : S_.BroadcastsInDim S131x128 (![] : Fin 0 → Fin S131x128.rank)
  reducesTo_S131x128_S_d0_1 : S131x128.ReducesTo [0, 1] S_

variable [Facts]

def fn_part2 {F : FTy → Type} [FloatOps F] (main_arg8 : FVec F S128 .f32) (main_arg9 : FVec F S128x128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x3 .f32) (main_arg6 : FVec F S3 .f32) (main_arg7 : FVec F S131x128 .f32) (main_arg8 : FVec F S128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg5
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S131x128 .f32 := Host.absf main_arg7
  let main_cst_10 : FVec F S_ .f32 := constant S_ .f32 0x7F800000#32
  let main_v30 : FVec F S131x128 .f32 := broadcastInDim S131x128 ![] bcast_S_S131x128 main_cst_10
  let main_v31 : IVec S131x128 1 := cmpf .olt main_v29 main_v30
  let main_c_11 : IVec S_ 1 := constantI S_ 1 1#1
  let main_v32 : IVec S_ 1 := (fun x v => Host.reduce IntOp.andi x v reducesTo_S131x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S50000x3 .f32) (main_arg2 : IVec S2x800000 32) (main_arg3 : FVec F S128x128 .f32) (main_arg4 : FVec F S128 .f32) (main_arg5 : FVec F S128x3 .f32) (main_arg6 : FVec F S3 .f32) (main_arg7 : FVec F S131x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S50000x3 : Shape := ⟨2, ![50000, 3]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S5000x128 : Shape := ⟨2, ![5000, 128]⟩
abbrev S5000x3 : Shape := ⟨2, ![5000, 3]⟩
abbrev S1x128 : Shape := ⟨2, ![1, 128]⟩
abbrev S1x3 : Shape := ⟨2, ![1, 3]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x131 : Shape := ⟨2, ![800000, 131]⟩
abbrev S50000x131 : Shape := ⟨2, ![50000, 131]⟩
abbrev S50000 : Shape := ⟨1, ![50000]⟩
abbrev S50000x1 : Shape := ⟨2, ![50000, 1]⟩
abbrev S5000x131 : Shape := ⟨2, ![5000, 131]⟩

abbrev nBuf : Space → Nat
  | .hbm => 72
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S50000x3, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x3, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x3, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x3, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x3, .f32⟩
  | .hbm, ⟨53, _⟩ => ⟨S800000x3, .f32⟩
  | .hbm, ⟨54, _⟩ => ⟨S800000x131, .f32⟩
  | .hbm, ⟨55, _⟩ => ⟨S_, .f32⟩
  | .hbm, ⟨56, _⟩ => ⟨S50000x131, .f32⟩
  | .hbm, ⟨57, _⟩ => ⟨S800000x1, .i32⟩
  | .hbm, ⟨58, _⟩ => ⟨S50000x131, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x131, .f32⟩
  | .hbm, ⟨70, _⟩ => ⟨S50000x131, .f32⟩
  | .hbm, ⟨71, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x3, .f32⟩
  | .local _ .vmem, ⟨5, _⟩ => ⟨S3, .f32⟩
  | .local _ .vmem, ⟨6, _⟩ => ⟨S5000x3, .f32⟩
  | .local _ .vmem, ⟨7, _⟩ => ⟨S5000x3, .f32⟩
  | .local _ .vmem, ⟨8, _⟩ => ⟨S5000x131, .f32⟩
  | .local _ .vmem, ⟨9, _⟩ => ⟨S5000x131, .f32⟩
  | .local _ .vmem, ⟨10, _⟩ => ⟨S5000x128, .f32⟩
  | .local _ .vmem, ⟨11, _⟩ => ⟨S5000x128, .f32⟩
  | .local _ .vmem, ⟨12, _⟩ => ⟨S131x128, .f32⟩
  | .local _ .vmem, ⟨13, _⟩ => ⟨S128, .f32⟩
  | .local _ .vmem, ⟨14, _⟩ => ⟨S128x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x131 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S131x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x3_S800000x128_S800000x131_d1 : Shape.Concatenates [S800000x3, S800000x128] S800000x131 1
  bcast_S_S50000x131 : S_.BroadcastsInDim S50000x131 (![] : Fin 0 → Fin S50000x131.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x131_0_1 : S50000x1.BroadcastsInDim S50000x131 (![0, 1] : Fin 2 → Fin S50000x131.rank)
  inb_S5000x131_S5000x131_0_0 : ∀ a, (![0, 0] : Fin 2 → Nat) a + S5000x131.size a ≤ S5000x131.size a
  h_S5000x131 : 0 < S5000x131.numel
  shapeCasts_S5000x131_S5000x131 : S5000x131.ShapeCasts S5000x131
  inb_S131x128_S131x128_0_0 : ∀ a, (![0, 0] : Fin 2 → Nat) a + S131x128.size a ≤ S131x128.size a
  h_S131x128 : 0 < S131x128.numel
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  scatter_S50000x131_S800000x1_S800000x131_1_0_0_1_wf : ScatterDims.WF S50000x131 S800000x1 S800000x131 [1] [0] [0] 1
  scatter_S50000_S800000x1_S800000_n_0_0_1_wf : ScatterDims.WF S50000 S800000x1 S800000 [] [0] [0] 1
  dot_S5000x131_S131x128_S5000x128_1_0_0_1_n_n_wf : DotDims.WF S5000x131 S131x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x3.size a ≤ S128x3.size a
  hwx0_3 : ∀ i : grid0.Coords, EltTy.bits .f32 = 32 ∨ (Rect.block (s := S128x3) S128x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x3.size a ≤ S50000x3.size a
  hwx0_5 : ∀ i : grid0.Coords, EltTy.bits .f32 = 32 ∨ (Rect.block (s := S50000x3) S5000x3.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x131.size a ≤ S50000x131.size a
  hwx1_0 : ∀ i : grid1.Coords, EltTy.bits .f32 = 32 ∨ (Rect.block (s := S50000x131) S5000x131.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S131x128.size a ≤ S131x128.size a
  hwx1_2 : ∀ i : grid1.Coords, EltTy.bits .f32 = 32 ∨ (Rect.block (s := S131x128) S131x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x131_S800000x1_S800000x131_1_0_0_1 : ScatterDims S50000x131 S800000x1 S800000x131 where
  updateWindowDims := [1]
  insertedWindowDims := [0]
  scatterDimsToOperandDims := [0]
  indexVectorDim := 1
  wf := scatter_S50000x131_S800000x1_S800000x131_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x131_S131x128_S5000x128_1_0_0_1_n_n : DotDims S5000x131 S131x128 S5000x128 where
  lhsContracting := [1]
  rhsContracting := [0]
  lhsNonContracting := [0]
  rhsNonContracting := [1]
  lhsBatch := []
  rhsBatch := []
  wf := dot_S5000x131_S131x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S5000x3.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v47) S5000x131.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S131x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S50000x3 : Shape := ⟨2, ![50000, 3]⟩
abbrev S2x800000 : Shape := ⟨2, ![2, 800000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S131x128 : Shape := ⟨2, ![131, 128]⟩
abbrev S1x128 : Shape := ⟨2, ![1, 128]⟩
abbrev S_ : Shape := ⟨0, ![]⟩
abbrev S1x3 : Shape := ⟨2, ![1, 3]⟩
abbrev S1x800000 : Shape := ⟨2, ![1, 800000]⟩
abbrev S800000 : Shape := ⟨1, ![800000]⟩
abbrev S800000x1 : Shape := ⟨2, ![800000, 1]⟩
abbrev S800000x3 : Shape := ⟨2, ![800000, 3]⟩
abbrev S800000x128 : Shape := ⟨2, ![800000, 128]⟩
abbrev S800000x131 : Shape := ⟨2, ![800000, 131]⟩
abbrev S50000x131 : Shape := ⟨2, ![50000, 131]⟩
abbrev S50000 : Shape := ⟨1, ![50000]⟩
abbrev S50000x1 : Shape := ⟨2, ![50000, 1]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x3, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S131x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S50000x128, .f32⟩
  | .hbm, ⟨12, _⟩ => ⟨S1x128, .f32⟩
  | .hbm, ⟨13, _⟩ => ⟨S50000x128, .f32⟩
  | .hbm, ⟨14, _⟩ => ⟨S50000x128, .f32⟩
  | .hbm, ⟨15, _⟩ => ⟨S_, .f32⟩
  | .hbm, ⟨16, _⟩ => ⟨S50000x128, .f32⟩
  | .hbm, ⟨17, _⟩ => ⟨S50000x128, .f32⟩
  | .hbm, ⟨18, _⟩ => ⟨S50000x3, .f32⟩
  | .hbm, ⟨19, _⟩ => ⟨S1x3, .f32⟩
  | .hbm, ⟨20, _⟩ => ⟨S50000x3, .f32⟩
  | .hbm, ⟨21, _⟩ => ⟨S50000x3, .f32⟩
  | .hbm, ⟨22, _⟩ => ⟨S50000x3, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x3, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x3, .f32⟩
  | .hbm, ⟨45, _⟩ => ⟨S800000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S800000x3, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .f32⟩
  | .hbm, ⟨65, _⟩ => ⟨S800000x131, .f32⟩
  | .hbm, ⟨66, _⟩ => ⟨S_, .f32⟩
  | .hbm, ⟨67, _⟩ => ⟨S50000x131, .f32⟩
  | .hbm, ⟨68, _⟩ => ⟨S800000x1, .i32⟩
  | .hbm, ⟨69, _⟩ => ⟨S50000x131, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x131, .f32⟩
  | .hbm, ⟨81, _⟩ => ⟨S50000x131, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S_, .f32⟩
  | .hbm, ⟨94, _⟩ => ⟨S50000x128, .f32⟩
  | .hbm, ⟨95, _⟩ => ⟨S50000x128, .f32⟩
  | .hbm, ⟨96, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_1 : Ref sig .tc := ⟨.hbm, 36, rfl⟩
abbrev main_v21 : Ref sig .tc := ⟨.hbm, 37, rfl⟩
abbrev main_v22 : Ref sig .tc := ⟨.hbm, 38, rfl⟩
abbrev main_c_2 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_3 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_c_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call1_cst : Ref sig .tc := ⟨.hbm, 86, rfl⟩
abbrev main_call1_v0 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x3_S800000x128_S800000x131_d1 : Shape.Concatenates [S800000x3, S800000x128] S800000x131 1
  bcast_S_S50000x131 : S_.BroadcastsInDim S50000x131 (![] : Fin 0 → Fin S50000x131.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x131_0_1 : S50000x1.BroadcastsInDim S50000x131 (![0, 1] : Fin 2 → Fin S50000x131.rank)
  dot_S50000x128_S128x128_S50000x128_1_0_0_1_n_n_wf : DotDims.WF S50000x128 S128x128 S50000x128 [1] [0] [0] [1] [] []
  dot_S50000x128_S128x3_S50000x3_1_0_0_1_n_n_wf : DotDims.WF S50000x128 S128x3 S50000x3 [1] [0] [0] [1] [] []
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  scatter_S50000x131_S800000x1_S800000x131_1_0_0_1_wf : ScatterDims.WF S50000x131 S800000x1 S800000x131 [1] [0] [0] 1
  scatter_S50000_S800000x1_S800000_n_0_0_1_wf : ScatterDims.WF S50000 S800000x1 S800000 [] [0] [0] 1
  dot_S50000x131_S131x128_S50000x128_1_0_0_1_n_n_wf : DotDims.WF S50000x131 S131x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x131_S800000x1_S800000x131_1_0_0_1 : ScatterDims S50000x131 S800000x1 S800000x131 where
  updateWindowDims := [1]
  insertedWindowDims := [0]
  scatterDimsToOperandDims := [0]
  indexVectorDim := 1
  wf := scatter_S50000x131_S800000x1_S800000x131_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x131_S131x128_S50000x128_1_0_0_1_n_n : DotDims S50000x131 S131x128 S50000x128 where
  lhsContracting := [1]
  rhsContracting := [0]
  lhsNonContracting := [0]
  rhsNonContracting := [1]
  lhsBatch := []
  rhsBatch := []
  wf := dot_S50000x131_S131x128_S50000x128_1_0_0_1_n_n_wf

class Facts : Prop extends Facts₀ where

variable [Facts]
-- ==== Proof.Spec.lean ====
/-
  The mathematics both programs compute, stated once over whole arrays at the ideal instance (floats are extended
  reals, a format change is the identity, a matrix product is the exact sum over the contracted axis).

  A graph layer over 50000 nodes with 128 features and 800000 directed edges:
  * `offsets`: per node, a 3-vector  tanh (relu (x · Wh1 + bh1) · Wh2 + bh2);
  * `aggregate`: per edge (j → i) the message  [pos j - pos i + offset i, x j]  (131 numbers), summed per target node
    and divided by max (number of incoming edges, 1) — gathers, a concatenation and two scatter-adds, kept here as ONE
    function of the arrays it reads: neither side of the certificate ever opens it;
  * `update`: per node,  x + relu (relu (agg · Wg1 + bg1) · Wg2 + bg2).
  `layer` composes the three.
-/
import proofs.«113038_j87875030876558_1_alg».proof.Proof.Gen.KernelIdeal
import Idealize.ShloMosaic.Lib.ValueIdx
import Idealize.ShloMosaic.PureOps.Ideal

noncomputable section

open scoped BigOperators

namespace Cert.Spec

open Idealize.ShloMosaic Idealize.ShloMosaic.ValueIdx Cert.KernelIdeal
open Cert.KernelIdeal.Facts₀ Cert.KernelIdeal.Facts

/-- The floor of a relu: the extended real the all-zero word denotes (it is never evaluated: both programs carry the
    same word). -/
abbrev floor0 : EReal := Ideal.ofBits .f32 0x00000000#32

/-! ## The first perceptron: a 3-vector per node -/

/-- Hidden unit `k` of node `r`:  relu (∑ l, x r l · Wh1 l k + bh1 k). -/
def hiddenH (x : Vec Ideal S50000x128 .f32) (w1 : Vec Ideal S128x128 .f32) (b1 : Vec Ideal S128 .f32)
    (r : Fin 50000) (k : Fin 128) : EReal :=
  max ((∑ l : Fin 128, x (ix2 r l) * w1 (ix2 l k)) + b1 (ix1 k)) floor0

/-- Coordinate `j` of node `r`'s offset:  tanh (∑ k, hidden r k · Wh2 k j + bh2 j). -/
def offsetAt (x : Vec Ideal S50000x128 .f32) (w1 : Vec Ideal S128x128 .f32) (b1 : Vec Ideal S128 .f32)
    (w2 : Vec Ideal S128x3 .f32) (b2 : Vec Ideal S3 .f32) (r : Fin 50000) (j : Fin 3) : EReal :=
  Ideal.tanh ((∑ k : Fin 128, hiddenH x w1 b1 r k * w2 (ix2 k j)) + b2 (ix1 j))

/-- The offsets as an array [50000, 3]. -/
def offsets (x : Vec Ideal S50000x128 .f32) (w1 : Vec Ideal S128x128 .f32) (b1 : Vec Ideal S128 .f32)
    (w2 : Vec Ideal S128x3 .f32) (b2 : Vec Ideal S3 .f32) : Vec Ideal S50000x3 .f32 :=
  fun i => offsetAt x w1 b1 w2 b2 ⟨(i 0).val, (i 0).isLt⟩ ⟨(i 1).val, (i 1).isLt⟩

/-! ## The aggregation over incoming edges: one function, never opened -/

/-- Row 0 of the edge list: each edge's source node. -/
def srcNodes (e : Vec Ideal S2x800000 .i32) : Vec Ideal S800000 .i32 :=
  shapeCast _ (extractStridedSlice S1x800000 ![0, 0] e slices_S2x800000_S1x800000_0_0) shapeCasts_S1x800000_S800000
/-- Row 1 of the edge list: each edge's target node. -/
def dstNodes (e : Vec Ideal S2x800000 .i32) : Vec Ideal S800000 .i32 :=
  shapeCast _ (extractStridedSlice S1x800000 ![1, 0] e slices_S2x800000_S1x800000_1_0) shapeCasts_S1x800000_S800000
/-- An index vector made ready for a row gather: a negative entry counts from the end (+50000), and the vector
    becomes a column. -/
def asRows (v : Vec Ideal S800000 .i32) : Vec Ideal S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)
/-- The per-edge messages [800000, 131]:  pos (source) - pos (target) + offset (target), then the source's features. -/
def messages (x : Vec Ideal S50000x128 .f32) (pos : Vec Ideal S50000x3 .f32) (e : Vec Ideal S2x800000 .i32)
    (d : Vec Ideal S50000x3 .f32) : Vec Ideal S800000x131 .f32 :=
  concatenate S800000x131 1
    [⟨S800000x3, (addf (F := Ideal) (φ := .f32) (subf (F := Ideal) (φ := .f32) (Host.gather gather_S50000x3_S800000x1_S800000x3_1_0_n_n_0_1_13 pos (asRows (srcNodes e)))
        (Host.gather gather_S50000x3_S800000x1_S800000x3_1_0_n_n_0_1_13 pos (asRows (dstNodes e))))
        (Host.gather gather_S50000x3_S800000x1_S800000x3_1_0_n_n_0_1_13 d (asRows (dstNodes e))))⟩,
     ⟨S800000x128, (Host.gather gather_S50000x128_S800000x1_S800000x128_1_0_n_n_0_1_1128 x (asRows (srcNodes e)))⟩]
    concatenates_S800000x3_S800000x128_S800000x131_d1
/-- The mean of the messages over each node's incoming edges (a node with none divides by 1). -/
def aggregate (x : Vec Ideal S50000x128 .f32) (pos : Vec Ideal S50000x3 .f32) (e : Vec Ideal S2x800000 .i32)
    (d : Vec Ideal S50000x3 .f32) : Vec Ideal S50000x131 .f32 :=
  Host.divf (F := Ideal) (φ := .f32)
    (Host.scatterAdd (F := Ideal) (φ := .f32) scatter_S50000x131_S800000x1_S800000x131_1_0_0_1
      (broadcastInDim S50000x131 ![] bcast_S_S50000x131 (constant (F := Ideal) S_ .f32 0x00000000#32))
      (broadcastInDim S800000x1 ![0] bcast_S800000_S800000x1_0 (dstNodes e)) (messages x pos e d))
    (broadcastInDim S50000x131 ![0, 1] bcast_S50000x1_S50000x131_0_1
      (broadcastInDim S50000x1 ![0] bcast_S50000_S50000x1_0
        (maximumf (F := Ideal) (φ := .f32)
          (Host.scatterAdd (F := Ideal) (φ := .f32) scatter_S50000_S800000x1_S800000_n_0_0_1
            (broadcastInDim S50000 ![] bcast_S_S50000 (constant (F := Ideal) S_ .f32 0x00000000#32))
            (broadcastInDim S800000x1 ![0] bcast_S800000_S800000x1_0 (dstNodes e))
            (broadcastInDim S800000 ![] bcast_S_S800000 (constant (F := Ideal) S_ .f32 0x3F800000#32)))
          (broadcastInDim S50000 ![] bcast_S_S50000 (constant (F := Ideal) S_ .f32 0x3F800000#32)))))

/-! ## The second perceptron, with the residual -/

/-- Hidden unit `k` of node `r`:  relu (∑ l, agg r l · Wg1 l k + bg1 k), the sum over the 131 aggregated numbers. -/
def hiddenG (a : Vec Ideal S50000x131 .f32) (w1 : Vec Ideal S131x128 .f32) (b1 : Vec Ideal S128 .f32)
    (r : Fin 50000) (k : Fin 128) : EReal :=
  max ((∑ l : Fin 131, a (ix2 r l) * w1 (ix2 l k)) + b1 (ix1 k)) floor0

/-- Feature `j` of node `r` after the layer:  x r j + relu (∑ k, hidden r k · Wg2 k j + bg2 j). -/
def updateAt (a : Vec Ideal S50000x131 .f32) (x : Vec Ideal S50000x128 .f32) (w1 : Vec Ideal S131x128 .f32)
    (b1 : Vec Ideal S128 .f32) (w2 : Vec Ideal S128x128 .f32) (b2 : Vec Ideal S128 .f32) (r : Fin 50000) (j : Fin 128) : EReal :=
  x (ix2 r j) + max ((∑ k : Fin 128, hiddenG a w1 b1 r k * w2 (ix2 k j)) + b2 (ix1 j)) floor0

/-- The updated features as an array [50000, 128]. -/
def update (a : Vec Ideal S50000x131 .f32) (x : Vec Ideal S50000x128 .f32) (w1 : Vec Ideal S131x128 .f32)
    (b1 : Vec Ideal S128 .f32) (w2 : Vec Ideal S128x128 .f32) (b2 : Vec Ideal S128 .f32) : Vec Ideal S50000x128 .f32 :=
  fun i => updateAt a x w1 b1 w2 b2 ⟨(i 0).val, (i 0).isLt⟩ ⟨(i 1).val, (i 1).isLt⟩

/-! ## The layer -/

/-- The whole layer: offsets, aggregation, update. -/
def layer (x : Vec Ideal S50000x128 .f32) (pos : Vec Ideal S50000x3 .f32) (e : Vec Ideal S2x800000 .i32)
    (wh1 : Vec Ideal S128x128 .f32) (bh1 : Vec Ideal S128 .f32) (wh2 : Vec Ideal S128x3 .f32) (bh2 : Vec Ideal S3 .f32)
    (wg1 : Vec Ideal S131x128 .f32) (bg1 : Vec Ideal S128 .f32) (wg2 : Vec Ideal S128x128 .f32) (bg2 : Vec Ideal S128 .f32) :
    Vec Ideal S50000x128 .f32 :=
  update (aggregate x pos e (offsets x wh1 bh1 wh2 bh2)) x wg1 bg1 wg2 bg2

end Cert.Spec

end
-- ==== Proof.Region0.lean ====
/-
  Region 0 of the program, read as a value: what its output array holds after the ten grid points have run.

  The region is a two-layer perceptron applied row by row. Each grid point t takes rows 5000·t … 5000·t + 4999 of the
  feature array x (a block [5000, 128]) together with the four whole parameter arrays, and writes rows
  5000·t … 5000·t + 4999 of the output (a block [5000, 3]). Entry (p, q) of the block it writes is
      tanh (∑ k, max (∑ l, x_blk p l · W1 l k + b1 k) 0 · W2 k q + b2 q),
  which depends on row p of the block only. Since row p of block t is row 5000·t + p of x, the block written at t is the
  block at t of the whole-array function `Cert.Spec.offsets`; the ten blocks tile the 50000 rows, so the array ends as
  that function.
-/
import proofs.«113038_j87875030876558_1_alg».proof.Proof.Gen.KernelIdeal.Frame
import proofs.«113038_j87875030876558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

/-! ## The two matrix products at an index

  Both products contract axis 1 of the left operand with axis 0 of the right one. For each, four coordinate facts say
  which entry of each operand the k-th term of the contraction reads: the left operand at (row of the result, k), the
  right operand at (k, column of the result). -/

theorem lhs_first_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_first_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_first_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_first_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The first product into the zero accumulator: entry (p, k) is the sum over l of a (p, l) · b (l, k). -/
theorem first_product_apply (a : FVec Ideal S5000x128 .bf16) (b : FVec Ideal S128x128 .bf16) (p : Fin 5000) (k : Fin 128) :
    matmul (F := Ideal) dot_S5000x128_S128x128_S5000x128_1_0_0_1_n_n none a b (constant (F := Ideal) S5000x128 .f32 0x00000000#32) (ix2 p k)
      = ∑ l : Fin 128, a (ix2 p l) * b (ix2 l k) := by
  refine (Ideal.matmul_constant_zero_apply dot_S5000x128_S128x128_S5000x128_1_0_0_1_n_n none a b (ix2 p k)).trans ?_
  rw [← Equiv.sum_comp (ValueIdx.contrEquiv1 dot_S5000x128_S128x128_S5000x128_1_0_0_1_n_n 128 rfl rfl).symm]
  refine Finset.sum_congr rfl fun l _ => ?_
  have hl := ValueIdx.contrEquiv1_symm_val dot_S5000x128_S128x128_S5000x128_1_0_0_1_n_n 128 rfl rfl l
  have el : dot_S5000x128_S128x128_S5000x128_1_0_0_1_n_n.lhsIdx (ix2 p k) ((ValueIdx.contrEquiv1 dot_S5000x128_S128x128_S5000x128_1_0_0_1_n_n 128 rfl rfl).symm l) = ix2 p l := funext fun ax => Fin.ext (by
    match ax with
    | ⟨0, _⟩ => exact lhs_first_0 _ _
    | ⟨1, _⟩ => exact (lhs_first_1 _ _).trans hl)
  have er : dot_S5000x128_S128x128_S5000x128_1_0_0_1_n_n.rhsIdx (ix2 p k) ((ValueIdx.contrEquiv1 dot_S5000x128_S128x128_S5000x128_1_0_0_1_n_n 128 rfl rfl).symm l) = ix2 l k := funext fun ax => Fin.ext (by
    match ax with
    | ⟨0, _⟩ => exact (rhs_first_0 _ _).trans hl
    | ⟨1, _⟩ => exact rhs_first_1 _ _)
  rw [el, er]

theorem lhs_second_0 (i : S5000x3.Idx) (q : dot_S5000x128_S128x3_S5000x3_1_0_0_1_n_n.contr.Idx) :
    (dot_S5000x128_S128x3_S5000x3_1_0_0_1_n_n.lhsIdx i q 0).val = (i 0).val := by
  unfold DotDims.lhsIdx
  rw [dif_neg (show ¬(0 : Fin S5000x128.rank) ∈ dot_S5000x128_S128x3_S5000x3_1_0_0_1_n_n.lhsBatch by decide), dif_pos (show (0 : Fin S5000x128.rank) ∈ dot_S5000x128_S128x3_S5000x3_1_0_0_1_n_n.lhsNonContracting by decide)]
  rfl
theorem lhs_second_1 (i : S5000x3.Idx) (q : dot_S5000x128_S128x3_S5000x3_1_0_0_1_n_n.contr.Idx) :
    (dot_S5000x128_S128x3_S5000x3_1_0_0_1_n_n.lhsIdx i q 1).val = (q ⟨0, by decide⟩).val :=
  dot_S5000x128_S128x3_S5000x3_1_0_0_1_n_n.lhsIdx_val_of_single rfl i q
theorem rhs_second_0 (i : S5000x3.Idx) (q : dot_S5000x128_S128x3_S5000x3_1_0_0_1_n_n.contr.Idx) :
    (dot_S5000x128_S128x3_S5000x3_1_0_0_1_n_n.rhsIdx i q 0).val = (q ⟨0, by decide⟩).val :=
  dot_S5000x128_S128x3_S5000x3_1_0_0_1_n_n.rhsIdx_val_of_single rfl i q
theorem rhs_second_1 (i : S5000x3.Idx) (q : dot_S5000x128_S128x3_S5000x3_1_0_0_1_n_n.contr.Idx) :
    (dot_S5000x128_S128x3_S5000x3_1_0_0_1_n_n.rhsIdx i q 1).val = (i 1).val := by
  unfold DotDims.rhsIdx
  rw [dif_neg (show ¬(1 : Fin S128x3.rank) ∈ dot_S5000x128_S128x3_S5000x3_1_0_0_1_n_n.rhsBatch by decide), dif_pos (show (1 : Fin S128x3.rank) ∈ dot_S5000x128_S128x3_S5000x3_1_0_0_1_n_n.rhsNonContracting by decide)]
  rfl

/-- The second product into the zero accumulator: entry (p, q) is the sum over k of a (p, k) · b (k, q). -/
theorem second_product_apply (a : FVec Ideal S5000x128 .bf16) (b : FVec Ideal S128x3 .bf16) (p : Fin 5000) (q : Fin 3) :
    matmul (F := Ideal) dot_S5000x128_S128x3_S5000x3_1_0_0_1_n_n none a b (constant (F := Ideal) S5000x3 .f32 0x00000000#32) (ix2 p q)
      = ∑ k : Fin 128, a (ix2 p k) * b (ix2 k q) := by
  refine (Ideal.matmul_constant_zero_apply dot_S5000x128_S128x3_S5000x3_1_0_0_1_n_n none a b (ix2 p q)).trans ?_
  rw [← Equiv.sum_comp (ValueIdx.contrEquiv1 dot_S5000x128_S128x3_S5000x3_1_0_0_1_n_n 128 rfl rfl).symm]
  refine Finset.sum_congr rfl fun k _ => ?_
  have hk := ValueIdx.contrEquiv1_symm_val dot_S5000x128_S128x3_S5000x3_1_0_0_1_n_n 128 rfl rfl k
  have el : dot_S5000x128_S128x3_S5000x3_1_0_0_1_n_n.lhsIdx (ix2 p q) ((ValueIdx.contrEquiv1 dot_S5000x128_S128x3_S5000x3_1_0_0_1_n_n 128 rfl rfl).symm k) = ix2 p k := funext fun ax => Fin.ext (by
    match ax with
    | ⟨0, _⟩ => exact lhs_second_0 _ _
    | ⟨1, _⟩ => exact (lhs_second_1 _ _).trans hk)
  have er : dot_S5000x128_S128x3_S5000x3_1_0_0_1_n_n.rhsIdx (ix2 p q) ((ValueIdx.contrEquiv1 dot_S5000x128_S128x3_S5000x3_1_0_0_1_n_n 128 rfl rfl).symm k) = ix2 k q := funext fun ax => Fin.ext (by
    match ax with
    | ⟨0, _⟩ => exact (rhs_second_0 _ _).trans hk
    | ⟨1, _⟩ => exact rhs_second_1 _ _)
  rw [el, er]

/-! ## The biases: a vector laid out as one row, then repeated down the rows -/

/-- The first bias, as one row repeated over 5000 rows, reads at (p, k) its entry k. -/
theorem first_bias_apply (b : Vec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ broadcasts_S1x128_S5000x128 p k).trans (shapeCast_a_1a_apply b shapeCasts_S128_S1x128 0 k)

/-- The second bias, as one row repeated over 5000 rows, reads at (p, q) its entry q. -/
theorem second_bias_apply (b : Vec Ideal S3 .f32) (p : Fin 5000) (q : Fin 3) :
    broadcastTo S5000x3 (shapeCast S1x3 b shapeCasts_S3_S1x3) broadcasts_S1x3_S5000x3 (ix2 p q) = b (ix1 q) :=
  (broadcastTo_1b_ab_apply _ broadcasts_S1x3_S5000x3 p q).trans (shapeCast_a_1a_apply b shapeCasts_S3_S1x3 0 q)

/-! ## The body's arithmetic at an index -/

/-- Entry (p, q) of what the body stores: the perceptron of row p of its feature block. The change of format before each
    product is the identity, each product into the zero accumulator is the plain sum, the relu's floor is the zero word. -/
theorem payload_apply (x0 : Vec Ideal S5000x128 .f32) (x1 : Vec Ideal S128x128 .f32) (x2 : Vec Ideal S128 .f32)
    (x3 : Vec Ideal S128x3 .f32) (x4 : Vec Ideal S3 .f32) (p : Fin 5000) (q : Fin 3) :
    k0_pay1 (F := Ideal) x0 x1 x2 x3 x4 (ix2 p q)
      = Ideal.tanh ((∑ k : Fin 128, max ((∑ l : Fin 128, x0 (ix2 p l) * x1 (ix2 l k)) + x2 (ix1 k)) Cert.Spec.floor0 * x3 (ix2 k q)) + x4 (ix1 q)) := by
  unfold k0_pay1
  show Ideal.tanh (_ + _) = _
  refine congrArg Ideal.tanh ?_
  refine congrArg₂ (· + ·) ?_ (second_bias_apply x4 p q)
  refine (second_product_apply _ _ p q).trans ?_
  refine Finset.sum_congr rfl fun k _ => ?_
  refine congrArg₂ (· * ·) ?_ rfl
  show max (_ + _) _ = _
  refine congrArg₂ max ?_ rfl
  refine congrArg₂ (· + ·) ?_ (first_bias_apply x2 p k)
  exact first_product_apply _ _ p k

/-! ## The specification at an index -/

/-- The whole-array function at an index whose row is r and whose column is j. -/
theorem offsets_apply (x : Vec Ideal S50000x128 .f32) (w1 : Vec Ideal S128x128 .f32) (b1 : Vec Ideal S128 .f32)
    (w2 : Vec Ideal S128x3 .f32) (b2 : Vec Ideal S3 .f32) (i : S50000x3.Idx) (r : Fin 50000) (j : Fin 3)
    (hr : (i 0).val = r.val) (hj : (i 1).val = j.val) :
    Cert.Spec.offsets x w1 b1 w2 b2 i
      = Ideal.tanh ((∑ k : Fin 128, max ((∑ l : Fin 128, x (ix2 r l) * w1 (ix2 l k)) + b1 (ix1 k)) Cert.Spec.floor0 * w2 (ix2 k j)) + b2 (ix1 j)) := by
  have e0 : (⟨(i 0).val, (i 0).isLt⟩ : Fin 50000) = r := Fin.ext hr
  have e1 : (⟨(i 1).val, (i 1).isLt⟩ : Fin 3) = j := Fin.ext hj
  show Cert.Spec.offsetAt x w1 b1 w2 b2 ⟨(i 0).val, (i 0).isLt⟩ ⟨(i 1).val, (i 1).isLt⟩ = _
  rw [e0, e1]
  rfl

/-! ## The blocks of the six windows

  At point t the feature window and the output window are at block index (t, 0); the four parameter windows are whole
  arrays at block index 0. An element of a block sits in its array at block index × block size + its coordinate inside
  the block. -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The block index maps, decided over the ten points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Row p of the feature block at point t is row 5000·t + p of the feature array. -/
theorem features_block_apply (c : Dev nD) (t : Fin cfg0.N) (p : Fin 5000) (l : Fin 128) (r : Fin 50000)
    (hr : r.val = t.val * 5000 + p.val) :
    iblk0 V c 0 t (ix2 p l) = V c main_arg0 (ix2 r l) := by
  obtain ⟨e0, e1, -⟩ := block_indices t
  show V c main_arg0 (((cfg0.win 0).blk t).view.emb (ix2 p l)) = V c main_arg0 (ix2 r l)
  congr 1
  funext a
  apply Fin.ext
  match a with
  | ⟨0, _⟩ => show win0_0.index t (0 : Fin 2) * 5000 + 1 * p.val = r.val; omega
  | ⟨1, _⟩ => show win0_0.index t (1 : Fin 2) * 128 + 1 * l.val = l.val; omega

/-- The first weight block is the first weight array. -/
theorem first_weights_block_apply (c : Dev nD) (t : Fin cfg0.N) (l : Fin 128) (k : Fin 128) :
    iblk0 V c 1 t (ix2 l k) = V c main_arg3 (ix2 l k) := by
  obtain ⟨-, -, e2, e3, -⟩ := block_indices t
  show V c main_arg3 (((cfg0.win 1).blk t).view.emb (ix2 l k)) = V c main_arg3 (ix2 l k)
  congr 1
  funext a
  apply Fin.ext
  match a with
  | ⟨0, _⟩ => show win0_1.index t (0 : Fin 2) * 128 + 1 * l.val = l.val; omega
  | ⟨1, _⟩ => show win0_1.index t (1 : Fin 2) * 128 + 1 * k.val = k.val; omega

/-- The first bias block is the first bias array. -/
theorem first_bias_block_apply (c : Dev nD) (t : Fin cfg0.N) (k : Fin 128) :
    iblk0 V c 2 t (ix1 k) = V c main_arg4 (ix1 k) := by
  obtain ⟨-, -, -, -, e4, -⟩ := block_indices t
  show V c main_arg4 (((cfg0.win 2).blk t).view.emb (ix1 k)) = V c main_arg4 (ix1 k)
  congr 1
  funext a
  apply Fin.ext
  match a with
  | ⟨0, _⟩ => show win0_2.index t (0 : Fin 1) * 128 + 1 * k.val = k.val; omega

/-- The second weight block is the second weight array. -/
theorem second_weights_block_apply (c : Dev nD) (t : Fin cfg0.N) (k : Fin 128) (q : Fin 3) :
    iblk0 V c 3 t (ix2 k q) = V c main_arg5 (ix2 k q) := by
  obtain ⟨-, -, -, -, -, e5, e6, -⟩ := block_indices t
  show V c main_arg5 (((cfg0.win 3).blk t).view.emb (ix2 k q)) = V c main_arg5 (ix2 k q)
  congr 1
  funext a
  apply Fin.ext
  match a with
  | ⟨0, _⟩ => show win0_3.index t (0 : Fin 2) * 128 + 1 * k.val = k.val; omega
  | ⟨1, _⟩ => show win0_3.index t (1 : Fin 2) * 3 + 1 * q.val = q.val; omega

/-- The second bias block is the second bias array. -/
theorem second_bias_block_apply (c : Dev nD) (t : Fin cfg0.N) (q : Fin 3) :
    iblk0 V c 4 t (ix1 q) = V c main_arg6 (ix1 q) := by
  obtain ⟨-, -, -, -, -, -, -, e7, -⟩ := block_indices t
  show V c main_arg6 (((cfg0.win 4).blk t).view.emb (ix1 q)) = V c main_arg6 (ix1 q)
  congr 1
  funext a
  apply Fin.ext
  match a with
  | ⟨0, _⟩ => show win0_4.index t (0 : Fin 1) * 3 + 1 * q.val = q.val; omega

/-! ## What a point writes back -/

/-- The block written back at point t is the block at t of the whole-array function: entry (p, q) of the body's store is
    the perceptron of row p of the feature block, which is row 5000·t + p of the feature array, and entry (p, q) of the
    output block sits at (5000·t + p, q) of the output array. -/
theorem flushed_eq (c : Dev nD) (t : Fin cfg0.N) :
    (dat0 V c).flushed 5 t = ((cfg0.win 5).blk t).view.read (Elt Ideal)
      (Cert.Spec.offsets (V c main_arg0) (V c main_arg3) (V c main_arg4) (V c main_arg5) (V c main_arg6)) := by
  show (cfg0.win 5).cut (grid0.coords t) ((dat0 V c).after 5 t) = _
  rw [after0_5]
  unfold out0_5
  rw [View.canon_unit_zero zero_offsets2]
  simp only [View.ld_unit_zero (S := S5000x128) zero_offsets2, View.ld_unit_zero (S := S128x128) zero_offsets2,
    View.ld_unit_zero (S := S128) zero_offsets1, View.ld_unit_zero (S := S128x3) zero_offsets2,
    View.ld_unit_zero (S := S3) zero_offsets1]
  funext j
  obtain ⟨p, q, rfl⟩ : ∃ (p : Fin 5000) (q : Fin 3), j = ix2 p q := ⟨j 0, j 1, eq_ix2 j⟩
  obtain ⟨-, -, -, -, -, -, -, -, e8, e9⟩ := block_indices t
  have hN : grid0.N = 10 := N_0
  have ht : t.val < grid0.N := t.isLt
  obtain ⟨r, hr⟩ : ∃ r : Fin 50000, r.val = t.val * 5000 + p.val := ⟨⟨t.val * 5000 + p.val, by omega⟩, rfl⟩
  show k0_pay1 (F := Ideal) (iblk0 V c 0 t) (iblk0 V c 1 t) (iblk0 V c 2 t) (iblk0 V c 3 t) (iblk0 V c 4 t) (ix2 p q)
    = Cert.Spec.offsets (V c main_arg0) (V c main_arg3) (V c main_arg4) (V c main_arg5) (V c main_arg6)
        (((cfg0.win 5).blk t).view.emb (ix2 p q))
  refine (payload_apply (iblk0 V c 0 t) (iblk0 V c 1 t) (iblk0 V c 2 t) (iblk0 V c 3 t) (iblk0 V c 4 t) p q).trans ?_
  refine Eq.trans ?_ (offsets_apply (V c main_arg0) (V c main_arg3) (V c main_arg4) (V c main_arg5) (V c main_arg6)
    (((cfg0.win 5).blk t).view.emb (ix2 p q)) r q
    (by show win0_5.index t (0 : Fin 2) * 5000 + 1 * p.val = r.val; omega)
    (by show win0_5.index t (1 : Fin 2) * 3 + 1 * q.val = q.val; omega)).symm
  refine congrArg Ideal.tanh ?_
  refine congrArg₂ (· + ·) (Finset.sum_congr rfl fun k _ => ?_) (second_bias_block_apply V c t q)
  refine congrArg₂ (· * ·) (congrArg₂ max (congrArg₂ (· + ·) (Finset.sum_congr rfl fun l _ => ?_) (first_bias_block_apply V c t k)) rfl)
    (second_weights_block_apply V c t k q)
  exact congrArg₂ (· * ·) (features_block_apply V c t p l r hr) (first_weights_block_apply V c t l k)

/-! ## The ten blocks tile the array -/

/-- An index of the output array lies in point t's block iff each coordinate lies in the block's range on its axis. -/
theorem mem_block (t : Fin cfg0.N) (i : S50000x3.Idx) :
    i ∈ ((cfg0.win 5).blk t).view.set ↔ ∀ a : Fin 2, win0_5.index t a * S5000x3.size a ≤ (i a).val ∧ (i a).val < win0_5.index t a * S5000x3.size a + S5000x3.size a := by
  show i ∈ ((View.whole main_v0).slice (win0_5.rect t)).set ↔ _
  rw [View.set_slice_whole, Rect.mem_set_unit]
  exact Iff.rfl

/-- Row r of the output array lies in the block of point r / 5000, and every point writes its block back. -/
theorem covered (i : S50000x3.Idx) :
    ∃ t : Fin cfg0.N, (cfg0.win 5).flush t = true ∧ i ∈ ((cfg0.win 5).blk t).view.set := by
  have h0 : (i 0).val < 50000 := (i 0).isLt
  have h1 : (i 1).val < 3 := (i 1).isLt
  have hN : grid0.N = 10 := N_0
  obtain ⟨t, ht⟩ : ∃ t : Fin cfg0.N, t.val = (i 0).val / 5000 := ⟨⟨(i 0).val / 5000, by show _ < grid0.N; omega⟩, rfl⟩
  obtain ⟨-, -, -, -, -, -, -, -, e8, e9⟩ := block_indices t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 3 ≤ (i 1).val ∧ (i 1).val < win0_5.index t (1 : Fin 2) * 3 + 3; omega

/-- After region 0 its output array holds the offsets of the arrays the region found at its entry. -/
theorem final (c : Dev nD) :
    (dat0 V c).arrAt 5 cfg0.N
      = Cert.Spec.offsets (V c main_arg0) (V c main_arg3) (V c main_arg4) (V c main_arg5) (V c main_arg6) :=
  (dat0 V c).arrAt_eq_of_cover 5 _ (fun t _ => flushed_eq V c t) covered

end Cert.KernelIdeal.Region0

end
-- ==== Proof.Region1.lean ====
/-
  Region 1 of the program, read as a value: what its output array holds after its ten grid points have run.

  The region is a two-layer perceptron with a residual, run over ten blocks of 5000 rows.  At a grid point the body
  takes a block of the aggregated array (5000 rows of 131 numbers), the matching block of the features (5000 rows of
  128), and the whole of the two weight matrices and the two bias rows, and stores one block of 5000 x 128 results.
  Entry (p, q) of that block depends on row p of the aggregated block, on row p, column q of the feature block, on all
  of the first weight matrix and bias, and on column q of the second weight matrix and bias:
      x p q + relu (sum_k relu (sum_l a p l * W1 l k + b1 k) * W2 k q + b2 q).
  The ten blocks tile the rows of the array in order, so the array ends holding that expression at every row: the
  update of the specification.
-/
import proofs.«113038_j87875030876558_1_alg».proof.Proof.Gen.KernelIdeal.Frame
import proofs.«113038_j87875030876558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

/-! ## The two matrix products at an index

  Both products contract the left operand's axis 1 with the right operand's axis 0 and have no batch axes: the
  left operand is read at (row of the output, contracted coordinate), the right operand at (contracted coordinate,
  column of the output).  Four coordinate facts per product say so, one per operand axis. -/

theorem lhsA_0 (i : S5000x128.Idx) (r : dot_S5000x131_S131x128_S5000x128_1_0_0_1_n_n.contr.Idx) :
    (dot_S5000x131_S131x128_S5000x128_1_0_0_1_n_n.lhsIdx i r 0).val = (i 0).val := by
  unfold DotDims.lhsIdx
  rw [dif_neg (show ¬(0 : Fin S5000x131.rank) ∈ dot_S5000x131_S131x128_S5000x128_1_0_0_1_n_n.lhsBatch by decide), dif_pos (show (0 : Fin S5000x131.rank) ∈ dot_S5000x131_S131x128_S5000x128_1_0_0_1_n_n.lhsNonContracting by decide)]
  rfl
theorem lhsA_1 (i : S5000x128.Idx) (r : dot_S5000x131_S131x128_S5000x128_1_0_0_1_n_n.contr.Idx) :
    (dot_S5000x131_S131x128_S5000x128_1_0_0_1_n_n.lhsIdx i r 1).val = (r ⟨0, by decide⟩).val :=
  dot_S5000x131_S131x128_S5000x128_1_0_0_1_n_n.lhsIdx_val_of_single rfl i r
theorem rhsA_0 (i : S5000x128.Idx) (r : dot_S5000x131_S131x128_S5000x128_1_0_0_1_n_n.contr.Idx) :
    (dot_S5000x131_S131x128_S5000x128_1_0_0_1_n_n.rhsIdx i r 0).val = (r ⟨0, by decide⟩).val :=
  dot_S5000x131_S131x128_S5000x128_1_0_0_1_n_n.rhsIdx_val_of_single rfl i r
theorem rhsA_1 (i : S5000x128.Idx) (r : dot_S5000x131_S131x128_S5000x128_1_0_0_1_n_n.contr.Idx) :
    (dot_S5000x131_S131x128_S5000x128_1_0_0_1_n_n.rhsIdx i r 1).val = (i 1).val := by
  unfold DotDims.rhsIdx
  rw [dif_neg (show ¬(1 : Fin S131x128.rank) ∈ dot_S5000x131_S131x128_S5000x128_1_0_0_1_n_n.rhsBatch by decide), dif_pos (show (1 : Fin S131x128.rank) ∈ dot_S5000x131_S131x128_S5000x128_1_0_0_1_n_n.rhsNonContracting by decide)]
  rfl

/-- The first product into the zero accumulator, at row `p` and hidden unit `k`: the sum over the 131 aggregated
    numbers of row `p` against column `k` of the first weight matrix. -/
theorem prodA_apply (a : FVec Ideal S5000x131 .bf16) (w : FVec Ideal S131x128 .bf16) (p : Fin 5000) (k : Fin 128) :
    matmul (F := Ideal) dot_S5000x131_S131x128_S5000x128_1_0_0_1_n_n none a w (constant (F := Ideal) S5000x128 .f32 0x00000000#32) (ix2 p k)
      = ∑ l : Fin 131, a (ix2 p l) * w (ix2 l k) := by
  refine (Ideal.matmul_constant_zero_apply dot_S5000x131_S131x128_S5000x128_1_0_0_1_n_n none a w (ix2 p k)).trans ?_
  rw [← Equiv.sum_comp (ValueIdx.contrEquiv1 dot_S5000x131_S131x128_S5000x128_1_0_0_1_n_n 131 rfl rfl).symm]
  refine Finset.sum_congr rfl fun l _ => ?_
  have hl := ValueIdx.contrEquiv1_symm_val dot_S5000x131_S131x128_S5000x128_1_0_0_1_n_n 131 rfl rfl l
  have el : dot_S5000x131_S131x128_S5000x128_1_0_0_1_n_n.lhsIdx (ix2 p k) ((ValueIdx.contrEquiv1 dot_S5000x131_S131x128_S5000x128_1_0_0_1_n_n 131 rfl rfl).symm l) = ix2 p l := funext fun ax => Fin.ext (by
    match ax with
    | ⟨0, _⟩ => exact lhsA_0 _ _
    | ⟨1, _⟩ => exact (lhsA_1 _ _).trans hl)
  have er : dot_S5000x131_S131x128_S5000x128_1_0_0_1_n_n.rhsIdx (ix2 p k) ((ValueIdx.contrEquiv1 dot_S5000x131_S131x128_S5000x128_1_0_0_1_n_n 131 rfl rfl).symm l) = ix2 l k := funext fun ax => Fin.ext (by
    match ax with
    | ⟨0, _⟩ => exact (rhsA_0 _ _).trans hl
    | ⟨1, _⟩ => exact rhsA_1 _ _)
  rw [el, er]

theorem lhsB_0 (i : S5000x128.Idx) (r : dot_S5000x128_S128x128_S5000x128_1_0_0_1_n_n.contr.Idx) :
    (dot_S5000x128_S128x128_S5000x128_1_0_0_1_n_n.lhsIdx i r 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (i : S5000x128.Idx) (r : dot_S5000x128_S128x128_S5000x128_1_0_0_1_n_n.contr.Idx) :
    (dot_S5000x128_S128x128_S5000x128_1_0_0_1_n_n.lhsIdx i r 1).val = (r ⟨0, by decide⟩).val :=
  dot_S5000x128_S128x128_S5000x128_1_0_0_1_n_n.lhsIdx_val_of_single rfl i r
theorem rhsB_0 (i : S5000x128.Idx) (r : dot_S5000x128_S128x128_S5000x128_1_0_0_1_n_n.contr.Idx) :
    (dot_S5000x128_S128x128_S5000x128_1_0_0_1_n_n.rhsIdx i r 0).val = (r ⟨0, by decide⟩).val :=
  dot_S5000x128_S128x128_S5000x128_1_0_0_1_n_n.rhsIdx_val_of_single rfl i r
theorem rhsB_1 (i : S5000x128.Idx) (r : dot_S5000x128_S128x128_S5000x128_1_0_0_1_n_n.contr.Idx) :
    (dot_S5000x128_S128x128_S5000x128_1_0_0_1_n_n.rhsIdx i r 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product into the zero accumulator, at row `p` and feature `q`: the sum over the 128 hidden units of
    row `p` against column `q` of the second weight matrix. -/
theorem prodB_apply (h : FVec Ideal S5000x128 .bf16) (w : FVec Ideal S128x128 .bf16) (p : Fin 5000) (q : Fin 128) :
    matmul (F := Ideal) dot_S5000x128_S128x128_S5000x128_1_0_0_1_n_n none h w (constant (F := Ideal) S5000x128 .f32 0x00000000#32) (ix2 p q)
      = ∑ k : Fin 128, h (ix2 p k) * w (ix2 k q) := by
  refine (Ideal.matmul_constant_zero_apply dot_S5000x128_S128x128_S5000x128_1_0_0_1_n_n none h w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun ax => Fin.ext (by
    match ax with
    | ⟨0, _⟩ => exact lhsB_0 _ _
    | ⟨1, _⟩ => exact (lhsB_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun ax => Fin.ext (by
    match ax with
    | ⟨0, _⟩ => exact (rhsB_0 _ _).trans hk
    | ⟨1, _⟩ => exact rhsB_1 _ _)
  rw [el, er]

/-! ## A bias row at an index

  A bias of 128 numbers is given a leading unit axis and then repeated down the 5000 rows: at (p, q) it reads the
  bias at q, whatever the row. -/

theorem biasRow_apply (b : Vec Ideal S128 .f32) (p : Fin 5000) (q : Fin 128) :
    broadcastTo S5000x128 (shapeCast S1x128 b shapeCasts_S128_S1x128) broadcasts_S1x128_S5000x128 (ix2 p q) = b (ix1 q) :=
  (broadcastTo_1b_ab_apply _ broadcasts_S1x128_S5000x128 p q).trans (shapeCast_a_1a_apply b shapeCasts_S128_S1x128 0 q)

/-! ## The body's arithmetic at an index

  The stored value is the feature block plus the relu of the second layer; a conversion to the narrower float format
  is the identity on extended reals, and the relu's floor is the word both programs carry. -/

/-- Entry (p, q) of the block the body stores, from the blocks it loads. -/
theorem payload_apply (a : Vec Ideal S5000x131 .f32) (w1 : Vec Ideal S131x128 .f32) (b1 : Vec Ideal S128 .f32)
    (w2 : Vec Ideal S128x128 .f32) (b2 : Vec Ideal S128 .f32) (x : Vec Ideal S5000x128 .f32) (p : Fin 5000) (q : Fin 128) :
    k1_pay1 (F := Ideal) a w1 b1 w2 b2 x (ix2 p q)
      = x (ix2 p q) + max ((∑ k : Fin 128, max ((∑ l : Fin 131, a (ix2 p l) * w1 (ix2 l k)) + b1 (ix1 k)) Cert.Spec.floor0 * w2 (ix2 k q)) + b2 (ix1 q)) Cert.Spec.floor0 := by
  unfold k1_pay1
  refine congrArg (x (ix2 p q) + ·) ?_
  refine congrArg (max · Cert.Spec.floor0) ?_
  refine congrArg₂ (· + ·) ?_ (biasRow_apply b2 p q)
  refine (prodB_apply _ _ p q).trans ?_
  refine Finset.sum_congr rfl fun k _ => ?_
  refine congrArg (· * w2 (ix2 k q)) ?_
  refine congrArg (max · Cert.Spec.floor0) ?_
  refine congrArg₂ (· + ·) ?_ (biasRow_apply b1 p k)
  refine (prodA_apply _ _ p k).trans ?_
  refine Finset.sum_congr rfl fun l _ => ?_
  exact congrArg (· * w1 (ix2 l k)) (congrFun (shapeCast_self a shapeCasts_S5000x131_S5000x131) (ix2 p l))

/-! ## One block of results is one block of the update

  Over plain blocks and arrays: if the aggregated block and the feature block are rows n * 5000 .. n * 5000 + 4999 of
  their arrays and the weights and biases are the whole arrays, then entry (p, q) of the stored block is the update at
  row n * 5000 + p, feature q.  Only row n * 5000 + p of the two large arrays is read. -/

theorem stored_eq_update (A : Vec Ideal S50000x131 .f32) (X : Vec Ideal S50000x128 .f32) (W1 : Vec Ideal S131x128 .f32)
    (B1 : Vec Ideal S128 .f32) (W2 : Vec Ideal S128x128 .f32) (B2 : Vec Ideal S128 .f32)
    (a : Vec Ideal S5000x131 .f32) (x : Vec Ideal S5000x128 .f32) (w1 : Vec Ideal S131x128 .f32)
    (b1 : Vec Ideal S128 .f32) (w2 : Vec Ideal S128x128 .f32) (b2 : Vec Ideal S128 .f32)
    (p : Fin 5000) (q : Fin 128) (r : Fin 50000)
    (ha : ∀ l : Fin 131, a (ix2 p l) = A (ix2 r l)) (hx : x (ix2 p q) = X (ix2 r q))
    (hw1 : w1 = W1) (hb1 : b1 = B1) (hw2 : w2 = W2) (hb2 : b2 = B2) :
    k1_pay1 (F := Ideal) a w1 b1 w2 b2 x (ix2 p q) = Cert.Spec.update A X W1 B1 W2 B2 (ix2 r q) := by
  subst hw1 hb1 hw2 hb2
  refine (payload_apply a w1 b1 w2 b2 x p q).trans ?_
  show _ = Cert.Spec.updateAt A X w1 b1 w2 b2 r q
  unfold Cert.Spec.updateAt Cert.Spec.hiddenG
  rw [hx]
  simp only [ha]

variable (V : (c : Dev nD) → (b : Ref sig .tc) → Buf (Elt Ideal) ((c : Thread nD τ).loc b))

/-! ## The blocks of a grid point, read off their arrays

  Point `t` of the ten takes block `t` (on the row axis) of the aggregated array and of the features, the whole of
  the weights and biases, and writes block `t` of the output: decided once over the grid.  A block's coordinate is its
  index times the block's size plus the coordinate inside the block. -/

theorem points : grid1.N = 10 := by decide

theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of the aggregated block at point `t` is row `t * 5000 + p` of the aggregated array. -/
theorem aggBlock_apply (c : Dev nD) (t : Fin cfg1.N) (p : Fin 5000) (l : Fin 131) (r : Fin 50000) (hr : r.val = t.val * 5000 + p.val) :
    (iblk1 V c 0 t : Vec Ideal S5000x131 .f32) (ix2 p l) = (V c main_v47 : Vec Ideal S50000x131 .f32) (ix2 r l) := by
  unfold iblk1
  rw [View.read_apply]
  show (V c main_v47 : Vec Ideal S50000x131 .f32) (((cfg1.win 0).blk t).view.emb (ix2 p l)) = _
  refine congrArg _ (funext fun ax => Fin.ext ?_)
  obtain ⟨e0, e1, -⟩ := index_facts t
  match ax with
  | ⟨0, _⟩ => show win1_0.index t (0 : Fin 2) * 5000 + 1 * p.val = r.val; omega
  | ⟨1, _⟩ => show win1_0.index t (1 : Fin 2) * 131 + 1 * l.val = l.val; omega

/-- Row `p` of the feature block at point `t` is row `t * 5000 + p` of the features. -/
theorem featBlock_apply (c : Dev nD) (t : Fin cfg1.N) (p : Fin 5000) (q : Fin 128) (r : Fin 50000) (hr : r.val = t.val * 5000 + p.val) :
    (iblk1 V c 1 t : Vec Ideal S5000x128 .f32) (ix2 p q) = (V c main_arg0 : Vec Ideal S50000x128 .f32) (ix2 r q) := by
  unfold iblk1
  rw [View.read_apply]
  show (V c main_arg0 : Vec Ideal S50000x128 .f32) (((cfg1.win 1).blk t).view.emb (ix2 p q)) = _
  refine congrArg _ (funext fun ax => Fin.ext ?_)
  obtain ⟨-, -, e0, e1, -⟩ := index_facts t
  match ax with
  | ⟨0, _⟩ => show win1_1.index t (0 : Fin 2) * 5000 + 1 * p.val = r.val; omega
  | ⟨1, _⟩ => show win1_1.index t (1 : Fin 2) * 128 + 1 * q.val = q.val; omega

/-- The first weight matrix is loaded whole at every point. -/
theorem w1Block_eq (c : Dev nD) (t : Fin cfg1.N) :
    (iblk1 V c 2 t : Vec Ideal S131x128 .f32) = (V c main_arg7 : Vec Ideal S131x128 .f32) := by
  funext j
  unfold iblk1
  rw [View.read_apply]
  show (V c main_arg7 : Vec Ideal S131x128 .f32) (((cfg1.win 2).blk t).view.emb j) = _
  refine congrArg _ (funext fun ax => Fin.ext ?_)
  obtain ⟨-, -, -, -, e0, e1, -⟩ := index_facts t
  match ax with
  | ⟨0, _⟩ => show win1_2.index t (0 : Fin 2) * 131 + 1 * (j 0).val = (j 0).val; omega
  | ⟨1, _⟩ => show win1_2.index t (1 : Fin 2) * 128 + 1 * (j 1).val = (j 1).val; omega

/-- The first bias is loaded whole at every point. -/
theorem b1Block_eq (c : Dev nD) (t : Fin cfg1.N) :
    (iblk1 V c 3 t : Vec Ideal S128 .f32) = (V c main_arg8 : Vec Ideal S128 .f32) := by
  funext j
  unfold iblk1
  rw [View.read_apply]
  show (V c main_arg8 : Vec Ideal S128 .f32) (((cfg1.win 3).blk t).view.emb j) = _
  refine congrArg _ (funext fun ax => Fin.ext ?_)
  obtain ⟨-, -, -, -, -, -, e0, -⟩ := index_facts t
  match ax with
  | ⟨0, _⟩ => show win1_3.index t (0 : Fin 1) * 128 + 1 * (j 0).val = (j 0).val; omega

/-- The second weight matrix is loaded whole at every point. -/
theorem w2Block_eq (c : Dev nD) (t : Fin cfg1.N) :
    (iblk1 V c 4 t : Vec Ideal S128x128 .f32) = (V c main_arg9 : Vec Ideal S128x128 .f32) := by
  funext j
  unfold iblk1
  rw [View.read_apply]
  show (V c main_arg9 : Vec Ideal S128x128 .f32) (((cfg1.win 4).blk t).view.emb j) = _
  refine congrArg _ (funext fun ax => Fin.ext ?_)
  obtain ⟨-, -, -, -, -, -, -, e0, e1, -⟩ := index_facts t
  match ax with
  | ⟨0, _⟩ => show win1_4.index t (0 : Fin 2) * 128 + 1 * (j 0).val = (j 0).val; omega
  | ⟨1, _⟩ => show win1_4.index t (1 : Fin 2) * 128 + 1 * (j 1).val = (j 1).val; omega

/-- The second bias is loaded whole at every point. -/
theorem b2Block_eq (c : Dev nD) (t : Fin cfg1.N) :
    (iblk1 V c 5 t : Vec Ideal S128 .f32) = (V c main_arg10 : Vec Ideal S128 .f32) := by
  funext j
  unfold iblk1
  rw [View.read_apply]
  show (V c main_arg10 : Vec Ideal S128 .f32) (((cfg1.win 5).blk t).view.emb j) = _
  refine congrArg _ (funext fun ax => Fin.ext ?_)
  obtain ⟨-, -, -, -, -, -, -, -, -, e0, -⟩ := index_facts t
  match ax with
  | ⟨0, _⟩ => show win1_5.index t (0 : Fin 1) * 128 + 1 * (j 0).val = (j 0).val; omega

/-- Entry (p, q) of the output block at point `t` sits at row `t * 5000 + p`, feature `q` of the output array. -/
theorem outBlock_emb (t : Fin cfg1.N) (p : Fin 5000) (q : Fin 128) (r : Fin 50000) (hr : r.val = t.val * 5000 + p.val) :
    (((cfg1.win 6).blk t).view.emb (ix2 p q) : S50000x128.Idx) = ix2 r q := by
  refine funext fun ax => Fin.ext ?_
  obtain ⟨-, -, -, -, -, -, -, -, -, -, e0, e1⟩ := index_facts t
  match ax with
  | ⟨0, _⟩ => show win1_6.index t (0 : Fin 2) * 5000 + 1 * p.val = r.val; omega
  | ⟨1, _⟩ => show win1_6.index t (1 : Fin 2) * 128 + 1 * q.val = q.val; omega

/-! ## What a point writes back, and the array after the ten points -/

theorem zero2 : (![0, 0] : Fin 2 → Nat) = fun _ => 0 := funext fun a => by fin_cases a <;> rfl
theorem zero1 : (![0] : Fin 1 → Nat) = fun _ => 0 := funext fun a => by fin_cases a <;> rfl

/-- Two blocks of 5000 x 128 that agree at every (p, q) are equal. -/
theorem block_ext (f g : Vec Ideal S5000x128 .f32) (h : ∀ (p : Fin 5000) (q : Fin 128), f (ix2 p q) = g (ix2 p q)) : f = g :=
  funext fun j => by rw [eq_ix2 j]; exact h _ _

/-- What point `t` writes back is block `t` of the update of the arrays the region found: the body stores its whole
    block at once, every load is of a whole block, and entry (p, q) is the update at row `t * 5000 + p`. -/
theorem flushed_eq (c : Dev nD) (t : Fin cfg1.N) :
    (dat1 V c).flushed 6 t = ((cfg1.win 6).blk t).view.read (Elt Ideal)
      (Cert.Spec.update (V c main_v47) (V c main_arg0) (V c main_arg7) (V c main_arg8) (V c main_arg9) (V c main_arg10)) := by
  show (cfg1.win 6).cut (grid1.coords t) ((dat1 V c).after 6 t) = _
  rw [after1_6]
  unfold out1_6
  rw [View.canon_unit_zero zero2]
  simp only [View.ld_unit_zero (S := S5000x131) zero2, View.ld_unit_zero (S := S131x128) zero2, View.ld_unit_zero (S := S128) zero1,
    View.ld_unit_zero (S := S128x128) zero2, View.ld_unit_zero (S := S5000x128) zero2]
  refine block_ext _ _ fun p q => ?_
  have ht : t.val < 10 := points ▸ t.isLt
  refine (stored_eq_update (V c main_v47) (V c main_arg0) (V c main_arg7) (V c main_arg8) (V c main_arg9) (V c main_arg10)
    (iblk1 V c 0 t) (iblk1 V c 1 t) (iblk1 V c 2 t) (iblk1 V c 3 t) (iblk1 V c 4 t) (iblk1 V c 5 t) p q ⟨t.val * 5000 + p.val, by omega⟩
    (fun l => aggBlock_apply V c t p l _ rfl) (featBlock_apply V c t p q _ rfl)
    (w1Block_eq V c t) (b1Block_eq V c t) (w2Block_eq V c t) (b2Block_eq V c t)).trans ?_
  rw [View.read_apply]
  exact congrArg _ (outBlock_emb t p q _ rfl).symm

/-- An index of the output array is in point `t`'s block iff each coordinate is in the block's range on its axis. -/
theorem mem_outBlock (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v48).slice (win1_6.rect t)).set ↔ _
  rw [View.set_slice_whole, Rect.mem_set_unit]
  exact Iff.rfl

/-- After region 1 its output array holds the update of the arrays the region found at its entry: every point writes
    its block back, and row `r` of the array lies in the block of point `r / 5000`. -/
theorem final (c : Dev nD) :
    (dat1 V c).arrAt 6 cfg1.N
      = Cert.Spec.update (V c main_v47) (V c main_arg0) (V c main_arg7) (V c main_arg8) (V c main_arg9) (V c main_arg10) :=
  (dat1 V c).arrAt_eq_of_cover 6 _ (fun t _ => flushed_eq V c t) fun i => by
    have hi0 : (i 0).val < 50000 := (i 0).isLt
    have hi1 : (i 1).val < 128 := (i 1).isLt
    have hlt : (i 0).val / 5000 < grid1.N := by rw [points]; omega
    obtain ⟨t, ht⟩ : ∃ t : Fin cfg1.N, t.val = (i 0).val / 5000 := ⟨⟨_, hlt⟩, rfl⟩
    refine ⟨t, flush1_6 t, ?_⟩
    rw [mem_outBlock]
    obtain ⟨-, -, -, -, -, -, -, -, -, -, e0, e1⟩ := index_facts t
    intro a
    match a with
    | ⟨0, _⟩ => show win1_6.index t (0 : Fin 2) * 5000 ≤ (i 0).val ∧ (i 0).val < win1_6.index t (0 : Fin 2) * 5000 + 5000; omega
    | ⟨1, _⟩ => show win1_6.index t (1 : Fin 2) * 128 ≤ (i 1).val ∧ (i 1).val < win1_6.index t (1 : Fin 2) * 128 + 128; omega

end Cert.KernelIdeal.Region1

end
-- ==== Proof.Between.lean ====
/-
  Between the two regions: what region 1 finds when it is entered. Its first input array is the aggregation of the
  launch arrays and of region 0's output; the other arrays it reads are the launch arrays, which nothing has written.
-/
import proofs.«113038_j87875030876558_1_alg».proof.Proof.Gen.KernelIdeal.Frame
import proofs.«113038_j87875030876558_1_alg».proof.Proof.Spec
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.ShloMosaic.ValueIdx Idealize.SL.Sem
open Idealize.ShloMosaic.Pipeline (Dat)
open Idealize.ShloMosaic.StableHlo

variable (m : (ℓ : Loc nD τ sig) → Buf (Elt Ideal) ℓ) (ρ : Dev nD → PrngReg)

/-- Region 0 leaves its first input, the node features, as launched. -/
theorem exit0_arg0 (c : Dev nD) : W1 m ρ c (Proc.devRef .tc main_arg0) = m ((c : Thread nD τ).loc main_arg0) :=
  (W1_arr m ρ c 0).trans (((dat0 (V0 m ρ) c).arrAt_in 0 rfl _).trans (A_eq0 (V0 m ρ) c 0))
/-- Region 0 does not touch the positions. -/
theorem exit0_arg1 (c : Dev nD) : W1 m ρ c (Proc.devRef .tc main_arg1) = m ((c : Thread nD τ).loc main_arg1) :=
  W1_of_ne m ρ c main_arg1 (by decide)
/-- Region 0 does not touch the edge list. -/
theorem exit0_arg2 (c : Dev nD) : W1 m ρ c (Proc.devRef .tc main_arg2) = m ((c : Thread nD τ).loc main_arg2) :=
  W1_of_ne m ρ c main_arg2 (by decide)
/-- Region 0's output array after its run. -/
theorem exit0_out (c : Dev nD) : W1 m ρ c (Proc.devRef .tc main_v0) = (dat0 (V0 m ρ) c).arrAt 5 cfg0.N :=
  W1_arr m ρ c 5

set_option maxHeartbeats 16000000 in
/-- The host stretch between the regions computes the aggregation of what region 0 left. -/
theorem entry1_agg (c : Dev nD) :
    V2 m ρ c main_v47
      = Cert.Spec.aggregate (W1 m ρ c (Proc.devRef .tc main_arg0)) (W1 m ρ c (Proc.devRef .tc main_arg1))
          (W1 m ρ c (Proc.devRef .tc main_arg2)) (W1 m ρ c (Proc.devRef .tc main_v0)) := by
  show StableHlo.after hostOps1 (W1 m ρ c) (Proc.devRef .tc main_v47) = _
  after_results_simp
  rfl

/-- The launch arrays region 1 reads are as launched when it is entered: read back from the program's end, where
    they are as launched, through region 1, which leaves its inputs in place. -/
theorem entry1_arg0 (c : Dev nD) : V2 m ρ c main_arg0 = m ((c : Thread nD τ).loc main_arg0) :=
  ((W3_arr m ρ c 1).trans (((dat1 (V2 m ρ) c).arrAt_in 1 rfl _).trans (A_eq1 (V2 m ρ) c 1))).symm.trans (W3_main_arg0 m ρ c)
theorem entry1_arg7 (c : Dev nD) : V2 m ρ c main_arg7 = m ((c : Thread nD τ).loc main_arg7) :=
  ((W3_arr m ρ c 2).trans (((dat1 (V2 m ρ) c).arrAt_in 2 rfl _).trans (A_eq1 (V2 m ρ) c 2))).symm.trans (W3_main_arg7 m ρ c)
theorem entry1_arg8 (c : Dev nD) : V2 m ρ c main_arg8 = m ((c : Thread nD τ).loc main_arg8) :=
  ((W3_arr m ρ c 3).trans (((dat1 (V2 m ρ) c).arrAt_in 3 rfl _).trans (A_eq1 (V2 m ρ) c 3))).symm.trans (W3_main_arg8 m ρ c)
theorem entry1_arg9 (c : Dev nD) : V2 m ρ c main_arg9 = m ((c : Thread nD τ).loc main_arg9) :=
  ((W3_arr m ρ c 4).trans (((dat1 (V2 m ρ) c).arrAt_in 4 rfl _).trans (A_eq1 (V2 m ρ) c 4))).symm.trans (W3_main_arg9 m ρ c)
theorem entry1_arg10 (c : Dev nD) : V2 m ρ c main_arg10 = m ((c : Thread nD τ).loc main_arg10) :=
  ((W3_arr m ρ c 5).trans (((dat1 (V2 m ρ) c).arrAt_in 5 rfl _).trans (A_eq1 (V2 m ρ) c 5))).symm.trans (W3_main_arg10 m ρ c)

end Cert.KernelIdeal.Between

end
-- ==== Proof.KernelValue.lean ====
/-
  The two-region program's result as a value: region 0 leaves the offsets, the host stretch aggregates them over the
  edges, region 1 updates the features; so the result array is the layer of the launch arrays.
-/
import proofs.«113038_j87875030876558_1_alg».proof.Proof.KernelRun
import proofs.«113038_j87875030876558_1_alg».proof.Proof.Region0
import proofs.«113038_j87875030876558_1_alg».proof.Proof.Region1
import proofs.«113038_j87875030876558_1_alg».proof.Proof.Between
import proofs.«113038_j87875030876558_1_alg».proof.Proof.Spec

set_option maxRecDepth 16384

noncomputable section

namespace Cert.KernelIdeal.Layer

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Region 0 is entered from the launch memory. -/
theorem entry0 (c : Dev nD) (b : Ref sig .tc) : V0 m ρ c b = m ((c : Thread nD τ).loc b) := rfl

/-- The result array at the program's end is the layer of the launch arrays. -/
theorem result_eq (c : Dev nD) :
    W3 m ρ c (Proc.devRef .tc main_v48) = Cert.Spec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W3_arr m ρ c 6).trans ?_
  rw [Region1.final (V2 m ρ) c, Between.entry1_agg m ρ c, Between.entry1_arg0 m ρ c, Between.entry1_arg7 m ρ c,
    Between.entry1_arg8 m ρ c, Between.entry1_arg9 m ρ c, Between.entry1_arg10 m ρ c, Between.exit0_arg0 m ρ c,
    Between.exit0_arg1 m ρ c, Between.exit0_arg2 m ρ c, Between.exit0_out m ρ c, Region0.final (V0 m ρ) c]
  simp only [entry0]
  rfl

/-- Every weakly fair execution of the program terminates, nothing faulting, with the result array at the layer of
    the launch arrays and the arguments as launched. -/
theorem run_value : θ_run defs (onTc (τ := τ) (main (F := Ideal))) ⟨m, fun _ => 0, ρ⟩ (fun r => ∀ c : Dev nD,
      r.2.mem ((c.tc : Thread nD τ).loc main_v48) = Cert.Spec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (Cert.KernelIdeal.Named.run_named m ρ)

end Cert.KernelIdeal.Layer

end
-- ==== Proof.RefValue.lean ====
/-
  The reference program's result, read as the layer of its argument arrays.

  The program is three stretches of host operations. The first ten make the per-node offsets, a two-layer perceptron
  with a hyperbolic tangent; read at a node and a coordinate they are a double sum over the features and the hidden
  units. The next forty-seven gather, join, scatter-add and divide along the edge list: they are the aggregation, taken
  whole, as one function of the features, the positions, the edge list and the offsets. The last eleven make the
  update, a second two-layer perceptron over the 131 aggregated numbers of a node, added to the node's own features.
  Each stretch is shown equal to its part of the layer; the layer composes them in the same order.
-/
import proofs.«113038_j87875030876558_1_alg».proof.Proof.Gen.ReferenceIdeal.Run
import proofs.«113038_j87875030876558_1_alg».proof.Proof.Gen.ReferenceIdeal.Read
import proofs.«113038_j87875030876558_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Layer

open Cert.ReferenceIdeal Cert.ReferenceIdeal.Gen Cert.ReferenceIdeal.Value Cert.ReferenceIdeal.Read
open Idealize.ShloMosaic Idealize.ShloMosaic.TcCoe Idealize.ShloMosaic.ValueIdx Idealize.SL.Sem

/-! ## Where the stages read their operands

The generated stages read their operands at composed index functions of the output position. At a node `p`, an
output column `q`, a hidden unit `k` and a contracted position `l`, every one of them is a plain pair (or single) of
coordinates: the node's row at column `l`, row `l` of the first weight matrix at column `k`, entry `k` of the first
bias, row `k` of the second weight matrix at column `q`, entry `q` of the second bias. -/

section first
variable (p : Fin 50000) (q : Fin 3) (k l : Fin 128)

/-- Hidden unit `k` of node `p` contracts the node's feature row: position `l` of it. -/
theorem featAt : lidx_main_v0 (lidx_main_v5 (ix2 p q) k) l = ix2 p l :=
  funext fun a => Fin.ext (by match a with | ⟨0, _⟩ => rfl | ⟨1, _⟩ => rfl)
/-- … against column `k` of the first weight matrix: its row `l`. -/
theorem w1At : ridx_main_v0 (lidx_main_v5 (ix2 p q) k) l = ix2 l k :=
  funext fun a => Fin.ext (by match a with | ⟨0, _⟩ => rfl | ⟨1, _⟩ => rfl)
/-- The first bias is read at the hidden unit. -/
theorem b1At : idx_main_v1 (idx_main_v2 (lidx_main_v5 (ix2 p q) k)) = ix1 k :=
  funext fun a => Fin.ext (by match a with | ⟨0, _⟩ => rfl)
/-- Coordinate `q` of the offset contracts the hidden row against column `q` of the second weight matrix. -/
theorem w2At : ridx_main_v5 (ix2 p q) k = ix2 k q :=
  funext fun a => Fin.ext (by match a with | ⟨0, _⟩ => rfl | ⟨1, _⟩ => rfl)
/-- The second bias is read at the offset's coordinate. -/
theorem b2At : idx_main_v6 (idx_main_v7 (ix2 p q)) = ix1 q :=
  funext fun a => Fin.ext (by match a with | ⟨0, _⟩ => rfl)
end first

section second
variable (p : Fin 50000) (q k : Fin 128) (l : Fin 131)

/-- Hidden unit `k` of node `p` contracts the node's aggregated row (131 numbers): position `l` of it. -/
theorem aggAt : lidx_main_v57 (ix2 p k) l = ix2 p l :=
  funext fun a => Fin.ext (by match a with | ⟨0, _⟩ => rfl | ⟨1, _⟩ => rfl)
/-- … against column `k` of the first weight matrix: its row `l`. -/
theorem g1At : ridx_main_v57 (ix2 p k) l = ix2 l k :=
  funext fun a => Fin.ext (by match a with | ⟨0, _⟩ => rfl | ⟨1, _⟩ => rfl)
/-- The first bias is read at the hidden unit. -/
theorem c1At : idx_main_v58 (idx_main_v59 (ix2 p k)) = ix1 k :=
  funext fun a => Fin.ext (by match a with | ⟨0, _⟩ => rfl)
/-- Feature `q` of the update contracts the node's hidden row: unit `k` of it. -/
theorem hidAt : lidx_main_v62 (ix2 p q) k = ix2 p k :=
  funext fun a => Fin.ext (by match a with | ⟨0, _⟩ => rfl | ⟨1, _⟩ => rfl)
/-- … against column `q` of the second weight matrix: its row `k`. -/
theorem g2At : ridx_main_v62 (ix2 p q) k = ix2 k q :=
  funext fun a => Fin.ext (by match a with | ⟨0, _⟩ => rfl | ⟨1, _⟩ => rfl)
/-- The second bias is read at the feature. -/
theorem c2At : idx_main_v63 (idx_main_v64 (ix2 p q)) = ix1 q :=
  funext fun a => Fin.ext (by match a with | ⟨0, _⟩ => rfl)
end second

/-! ## The three parts -/

/-- The first ten operations are the offsets: at node `p` and coordinate `q`, the hyperbolic tangent of the hidden
    row (a relu of the node's features through the first weight matrix plus bias) through column `q` of the second
    weight matrix plus bias. Both sides are the same double sum; only the names of the positions differ. -/
theorem offsets_eq (x0 : (⟨S50000x128, .f32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal)) (x6 : (⟨S3, .f32⟩ : BufTy).Contents (Elt Ideal)) :
    val_main_v9 (F := Ideal) x0 x3 x4 x5 x6 = Cert.Spec.offsets x0 x3 x4 x5 x6 := by
  funext i
  obtain ⟨p, q, rfl⟩ : ∃ (p : Fin 50000) (q : Fin 3), i = ix2 p q := ⟨i 0, i 1, eq_ix2 i⟩
  rw [val_main_v9_apply, val_main_v8_apply, val_main_v5_apply, val_main_v7_apply, val_main_v6_apply]
  simp only [val_main_v4_apply, val_main_v3_apply, val_main_v0_apply, val_main_v2_apply, val_main_v1_apply,
    val_main_call0_v0_apply, val_main_call0_cst_apply, featAt, w1At, b1At, w2At, b2At,
    Ideal.hostUnary_tanh_def, Ideal.addf_def, Ideal.maximumf_def, Ideal.ofBits_def]
  rfl

set_option maxHeartbeats 1000000 in
/-- The forty-seven operations between the offsets and the second perceptron are the aggregation, operation for
    operation: the two rows of the edge list, the wrap of negative node numbers, the four row gathers, the
    difference of positions plus the target's offset joined to the source's features, the two scatter-adds (the
    messages, and a one per edge for the count) and the division by the count floored at one. The offsets enter as
    one array; nothing is read at an index. -/
theorem aggregate_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal)) (x6 : (⟨S3, .f32⟩ : BufTy).Contents (Elt Ideal)) :
    val_main_v56 x0 x1 x2 x3 x4 x5 x6 = Cert.Spec.aggregate x0 x1 x2 (val_main_v9 x0 x3 x4 x5 x6) := by
  simp only [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_c, val_main_c_0, val_main_c_1, val_main_c_2, val_main_c_3, val_main_c_4, val_main_c_5, val_main_c_6, val_main_cst, val_main_cst_7, val_main_cst_8, val_main_cst_9]
  generalize val_main_v9 x0 x3 x4 x5 x6 = d
  unfold Cert.Spec.aggregate Cert.Spec.messages Cert.Spec.asRows Cert.Spec.srcNodes Cert.Spec.dstNodes
  rfl

/-- The second perceptron's hidden row: at node `p` and unit `k`, a relu of the node's aggregated row (131 numbers)
    through column `k` of the first weight matrix plus bias. The aggregate enters as one array, read only at `(p, l)`. -/
theorem hiddenG_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal)) (x6 : (⟨S3, .f32⟩ : BufTy).Contents (Elt Ideal)) (x7 : (⟨S131x128, .f32⟩ : BufTy).Contents (Elt Ideal))
    (x8 : (⟨S128, .f32⟩ : BufTy).Contents (Elt Ideal)) (p : Fin 50000) (k : Fin 128) :
    val_main_v61 (F := Ideal) x0 x1 x2 x3 x4 x5 x6 x7 x8 (ix2 p k)
      = Cert.Spec.hiddenG (val_main_v56 (F := Ideal) x0 x1 x2 x3 x4 x5 x6) x7 x8 p k := by
  rw [val_main_v61_apply, val_main_v60_apply, val_main_v57_apply, val_main_v59_apply, val_main_v58_apply,
    val_main_call1_v0_apply, val_main_call1_cst_apply]
  generalize val_main_v56 (F := Ideal) x0 x1 x2 x3 x4 x5 x6 = a
  simp only [aggAt, g1At, c1At, Ideal.addf_def, Ideal.maximumf_def, Ideal.ofBits_def]
  rfl

/-- The last eleven operations are the update: at node `p` and feature `q`, the node's own feature plus a relu of
    the hidden row through column `q` of the second weight matrix plus bias. -/
theorem update_eq (x0 : (⟨S50000x128, .f32⟩ : BufTy).Contents (Elt Ideal)) (x1 : (⟨S50000x3, .f32⟩ : BufTy).Contents (Elt Ideal))
    (x2 : (⟨S2x800000, .i32⟩ : BufTy).Contents (Elt Ideal)) (x3 : (⟨S128x128, .f32⟩ : BufTy).Contents (Elt Ideal))
    (x4 : (⟨S128, .f32⟩ : BufTy).Contents (Elt Ideal)) (x5 : (⟨S128x3, .f32⟩ : BufTy).Contents (Elt Ideal)) (x6 : (⟨S3, .f32⟩ : BufTy).Contents (Elt Ideal)) (x7 : (⟨S131x128, .f32⟩ : BufTy).Contents (Elt Ideal))
    (x8 : (⟨S128, .f32⟩ : BufTy).Contents (Elt Ideal)) (x9 : (⟨S128x128, .f32⟩ : BufTy).Contents (Elt Ideal)) (x10 : (⟨S128, .f32⟩ : BufTy).Contents (Elt Ideal)) :
    val_main_v67 (F := Ideal) x0 x1 x2 x3 x4 x5 x6 x7 x8 x9 x10
      = Cert.Spec.update (val_main_v56 (F := Ideal) x0 x1 x2 x3 x4 x5 x6) x0 x7 x8 x9 x10 := by
  funext i
  obtain ⟨p, q, rfl⟩ : ∃ (p : Fin 50000) (q : Fin 128), i = ix2 p q := ⟨i 0, i 1, eq_ix2 i⟩
  have hk : ∀ k : Fin 128,
      val_main_v61 (F := Ideal) x0 x1 x2 x3 x4 x5 x6 x7 x8 (lidx_main_v62 (ix2 p q) k) * x9 (ridx_main_v62 (ix2 p q) k)
        = Cert.Spec.hiddenG (val_main_v56 (F := Ideal) x0 x1 x2 x3 x4 x5 x6) x7 x8 p k * x9 (ix2 k q) := fun k => by
    rw [hidAt, g2At, hiddenG_eq]
  rw [val_main_v67_apply, val_main_v66_apply, val_main_v65_apply, val_main_v62_apply, val_main_v64_apply,
    val_main_v63_apply, val_main_call2_v0_apply, val_main_call2_cst_apply, c2At, Finset.sum_congr rfl fun k _ => hk k]
  generalize val_main_v56 (F := Ideal) x0 x1 x2 x3 x4 x5 x6 = a
  simp only [Ideal.addf_def, Ideal.maximumf_def, Ideal.ofBits_def]
  rfl

/-! ## The result -/

/-- The reference's result term is the layer of the launch arrays: its operations, read in order, are the offsets,
    then the aggregation of the messages built from them, then the update of the features by the aggregate. -/
theorem result_eq (m : (ℓ : Loc nD τ sig) → Buf (Elt Ideal) ℓ) (c : Dev nD) :
    res_main_v67 m c
      = Cert.Spec.layer (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  unfold Cert.Spec.layer
  rw [val_main_v67_eq, update_eq, aggregate_eq, offsets_eq]

end Cert.ReferenceIdeal.Layer

end
-- ==== Proof.lean ====
/-
  The certificate of a graph layer computed two ways. The kernel program runs two pipelined perceptrons — the first
  gives each node a 3-vector offset, the second updates the node's features from an aggregate, with a residual — around
  a stretch of gathers and scatter-adds over the edge list; the reference computes the same three steps on whole arrays.
  At the ideal instance a bf16 cast is the identity and a matrix product is the exact sum over the contracted axis, so
  both programs end with the same array: `Cert.Spec.layer` of the arguments. The aggregation over the edges is the same
  function on both sides and is carried unopened; the two perceptrons are compared entry by entry.
  The three frames are the programs' runs with the results dropped; the idealization rewrote nothing.
-/
import proofs.«113038_j87875030876558_1_alg».proof.Defs
import proofs.«113038_j87875030876558_1_alg».proof.Proof.Gen.Kernel
import proofs.«113038_j87875030876558_1_alg».proof.Proof.Gen.Kernel.Skeleton
import proofs.«113038_j87875030876558_1_alg».proof.Proof.Gen.Kernel.Launch
import proofs.«113038_j87875030876558_1_alg».proof.Proof.Gen.Kernel.Points
import proofs.«113038_j87875030876558_1_alg».proof.Proof.Gen.Kernel.Frame
import proofs.«113038_j87875030876558_1_alg».proof.Proof.Gen.KernelIdeal
import proofs.«113038_j87875030876558_1_alg».proof.Proof.Gen.KernelIdeal.Skeleton
import proofs.«113038_j87875030876558_1_alg».proof.Proof.Gen.KernelIdeal.Launch
import proofs.«113038_j87875030876558_1_alg».proof.Proof.Gen.KernelIdeal.Points
import proofs.«113038_j87875030876558_1_alg».proof.Proof.Gen.KernelIdeal.Frame
import proofs.«113038_j87875030876558_1_alg».proof.Proof.Gen.ReferenceIdeal
import proofs.«113038_j87875030876558_1_alg».proof.Proof.Gen.Pre_finite_inputs
import proofs.«113038_j87875030876558_1_alg».proof.Proof.Gen.ReferenceIdeal.Run
import proofs.«113038_j87875030876558_1_alg».proof.Proof.Gen.ReferenceIdeal.Read
import proofs.«113038_j87875030876558_1_alg».proof.Proof.KernelValue
import proofs.«113038_j87875030876558_1_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Gen.frame m ρ
/-- So does the idealized kernel program. -/
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the layer of the arguments. -/
theorem algebraic : Cert.algebraic_KernelIdeal_ReferenceIdeal := by
  intro m ρ m' ρ' _ hagree
  refine ⟨fun c => Cert.Spec.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.Layer.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layer.result_eq m' c]
  obtain ⟨e0, e1, e2, e3, e4, e5, e6, e7, e8, e9, e10⟩ := hagree c
  rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
